-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8192x1024 .f32) (main_arg1 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c1024_i32_7 : BitVec 32 := 1024#32
  let v12 : BitVec 32 := Scalar.muli arg1 c1024_i32_7
  let v13 : Index := Scalar.indexCast v12
  let c0_8 : Index := 0#32
  ![v13.toNat, 0]
def k0_off2 (i : grid0.Coords) : Fin 2 → Nat :=
  let arg1 : BitVec 32 := BitVec.ofNat 32 (i 1).val
  let c1024_i32 : BitVec 32 := 1024#32
  let v5 : BitVec 32 := Scalar.muli arg1 c1024_i32
  let v6 : Index := Scalar.indexCast v5
  let c0_2 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  dot_S1024x1024_S1024x1024_S1024x1024_1_1_0_0_n_n_wf : DotDims.WF S1024x1024 S1024x1024 S1024x1024 [1] [1] [0] [0] [] []
  hrank0 : 0 < grid0.rank
  k0_off1_inb : ∀ i : grid0.Coords, ∀ (k0_h1 : k0_cond1 i = 1#1), ∀ a, (k0_off1 i) a + S1024x1024.size a ≤ S4096x1024.size a
  k0_off1_packedbf16 : ∀ i : grid0.Coords, ∀ (k0_h1 : k0_cond1 i = 1#1), (Rect.unit (s := S4096x1024) (k0_off1 i) S1024x1024.size (k0_off1_inb i k0_h1)).PackedRows (EltTy.packing .bf16)
  k0_off2_inb : ∀ i : grid0.Coords, ∀ a, (k0_off2 i) a + S1024x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S8192x4096 : Shape := ⟨2, ![8192, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x1024, .f32⟩
  | .hbm, ⟨22, _⟩ => ⟨S4096x1024, .i1⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  gather_S4096x1024_S4096x1_S4096x1024_1_0_n_n_0_1_11024_wf : GatherDims.WF S4096x1024 S4096x1 S4096x1024 [1] [0] [] [0] [] 1 ![1, 1024]
  dot_S8192x1024_S4096x1024_S8192x4096_1_1_0_0_n_n_wf : DotDims.WF S8192x1024 S4096x1024 S8192x4096 [1] [1] [0] [0] [] []

variable [Facts₀]

def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.BodyRunsK.lean ====
/-
  The kernel body at one grid point, run on its staging buffers and its scratch.

  The grid has 32 points, point t = 4·i + j for the row block i of the token embeddings and the tile j of the table.
  The body keeps a scratch copy of the whole table in the narrow float format. At the four points of the first row
  block (i = 0) it first narrows the table tile it was handed and stores it into rows [1024·j, 1024·j + 1024) of the
  scratch; at every point it then multiplies the narrowed row block of the embeddings by the transpose of rows
  [1024·j, 1024·j + 1024) of the scratch and stores the product into the output block.

  Two runs, one per side of the branch. On the first row block the stored tile is read back, so the product does
  not depend on what the scratch held before; at the later points the product reads the scratch as it was left.
-/
import proofs.«146951_g68109591380859_cont_9to1c4b_295_12_alg».proof.Proof.Gen.Kernel.Frame
import proofs.«146951_g68109591380859_cont_9to1c4b_295_12_alg».proof.Proof.Gen.Kernel.Skeleton
import Idealize.ShloMosaic.Lib.Pipeline.Value
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch: taken exactly on the first row block. -/
abbrev firstRow (i : grid0.Coords) : Prop := k0_cond1 i = 1#1

theorem hz : (![0, 0] : Fin 2 → Nat) = fun _ => 0 := funext fun a => by fin_cases a <;> rfl

/-- The table tile as the body stores it: the tile it was handed, narrowed. -/
abbrev narrowed (x1 : Vec F S1024x1024 .f32) : Vec F S1024x1024 .bf16 := k0_pay1 x1

/-- What the scratch reads after the store of the first row block: rows [1024·j, 1024·j + 1024) overwritten. -/
def scratchAfter (i : grid0.Coords) (arg5 : Memref sig .tc .vmem S4096x1024 .bf16) (harg5 : arg5.IsWhole) (hc0 : firstRow i)
    (x1 : Vec F S1024x1024 .f32) (xs0 : Vec F S4096x1024 .bf16) : Vec F S4096x1024 .bf16 :=
  arg5.view.read (Elt F) (arg5.view.writes (Elt F) (harg5.unread xs0)
    [⟨Rect.unit (s := S4096x1024) (k0_off1 i) S1024x1024.size (Facts₀.k0_off1_inb i hc0), narrowed x1⟩])

/-- Rows [1024·j, 1024·j + 1024) of the scratch, as the product reads them. -/
abbrev tileOf (i : grid0.Coords) (xs0 : Vec F S4096x1024 .bf16) : Vec F S1024x1024 .bf16 :=
  View.ld xs0 (Rect.unit (s := S4096x1024) (k0_off2 i) S1024x1024.size (Facts₀.k0_off2_inb i))

set_option maxHeartbeats 1000000 in
/-- On the first row block: the output block ends at the product of the embeddings' block with the narrowed tile
    just stored, and the scratch at its contents with that tile's rows overwritten. -/
theorem run_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S4096x1024 .bf16) (harg5 : arg5.IsWhole) (hc0 : firstRow i)
    (x0 : Vec F S1024x1024 .f32) (x1 : Vec F S1024x1024 .f32) (xs0 : Vec F S4096x1024 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ owns (c : Thread nD τ) arg4 fullShare (k0_pay2 x0 (narrowed x1))
                ∗ owns (c : Thread nD τ) arg5 fullShare (scratchAfter i arg5 harg5 hc0 x1 xs0)) -∗ K ⟨⟩))
          ⊢ wp frame (wpE (defs₀ (F := F)) Variants.none c none) E (cc0__readout_matmul_kernel i arg2 harg2 arg3 harg3 arg4 harg4 arg5 harg5) K := by
    intro E K
    simp only [cc0__readout_matmul_kernel_eq_skeleton]; unfold cc0__readout_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_singleton_self _, View.mem_set_unit_zero hz Facts₀.inb_S1024x1024_S1024x1024_0_0 y⟩),
        View.canon_unit_zero hz]
      simp only [View.readAt_eq_ld, harg2.read_unread, harg3.read_unread, View.ld_unit_zero (S := S1024x1024) hz]
      exact congrArg (k0_pay2 x0) (View.readCov_cons_toLoadRect _ _ _ _)
    iexists _; isplitr; swap; · iexact HS0
    ipureintro
    unfold scratchAfter narrowed
    simp only [View.readAt_eq_ld, harg3.read_unread, View.ld_unit_zero (S := S1024x1024) hz]
    rfl

set_option maxHeartbeats 1000000 in
/-- At the later points: the output block ends at the product of the embeddings' block with rows
    [1024·j, 1024·j + 1024) of the scratch as found, and the scratch is left as found. -/
theorem run_later (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S4096x1024 .bf16) (harg5 : arg5.IsWhole) (hc0 : ¬firstRow i)
    (x0 : Vec F S1024x1024 .f32) (x1 : Vec F S1024x1024 .f32) (xs0 : Vec F S4096x1024 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ owns (c : Thread nD τ) arg4 fullShare (k0_pay2 x0 (tileOf i xs0))
                ∗ owns (c : Thread nD τ) arg5 fullShare xs0) -∗ K ⟨⟩))
          ⊢ wp frame (wpE (defs₀ (F := F)) Variants.none c none) E (cc0__readout_matmul_kernel i arg2 harg2 arg3 harg3 arg4 harg4 arg5 harg5) K := by
    intro E K
    simp only [cc0__readout_matmul_kernel_eq_skeleton]; unfold cc0__readout_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_singleton_self _, View.mem_set_unit_zero hz Facts₀.inb_S1024x1024_S1024x1024_0_0 y⟩),
        View.canon_unit_zero hz]
      simp only [View.readAt_eq_ld, harg2.read_unread, harg5.read_unread, View.ld_unit_zero (S := S1024x1024) hz]
      rfl
    iexists _; isplitr; swap; · iexact HS0
    ipureintro; exact harg5.read_unread _

end Cert.Kernel.Body

end
-- ==== Proof.BodyDataK.lean ====
/-
  The proof data of the kernel's one pipelined call and its run.

  Across the 32 grid points the kernel carries the narrowed table in its scratch. The invariant before point n says
  which tiles of the scratch are already the narrowed table: tile j (rows [1024·j, 1024·j + 1024)) for every j < n,
  which is every tile from point 4 on. With it the block the body leaves in the output window at point t = 4·i + j
  is named exactly: the product of row block i of the embeddings with the transpose of the narrowed tile j of the
  table, whether that tile was stored at this point (first row block) or at point j.
-/
import proofs.«146951_g68109591380859_cont_9to1c4b_295_12_alg».proof.Proof.BodyRunsK
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the grid -/

theorem hN : cfg0.N = 32 := N_0

/-- The branch is taken exactly at the first four points. -/
theorem hfirst : ∀ t : Fin cfg0.N, firstRow (grid0.coords t) ↔ t.val < 4 :=
  (by decide +kernel : ∀ t : Fin grid0.N, firstRow (grid0.coords t) ↔ t.val < 4)

/-- The stored tile starts at row 1024·(t mod 4), column 0; -/
theorem off1_eq : ∀ t : Fin cfg0.N, k0_off1 (grid0.coords t) = ![1024 * (t.val % 4), 0] :=
  (by decide +kernel : ∀ t : Fin grid0.N, k0_off1 (grid0.coords t) = ![1024 * (t.val % 4), 0])

/-- and so does the tile the product reads. -/
theorem off2_eq : ∀ t : Fin cfg0.N, k0_off2 (grid0.coords t) = ![1024 * (t.val % 4), 0] :=
  (by decide +kernel : ∀ t : Fin grid0.N, k0_off2 (grid0.coords t) = ![1024 * (t.val % 4), 0])

/-! ## Memrefs and blocks, at their literal types -/

abbrev ms0 (t : Fin cfg0.N) : Memref sig .tc .vmem S1024x1024 .f32 := win0_0.stage (cfg0.slots t 0)
abbrev ms1 (t : Fin cfg0.N) : Memref sig .tc .vmem S1024x1024 .f32 := win0_1.stage (cfg0.slots t 1)
abbrev ms2 (t : Fin cfg0.N) : Memref sig .tc .vmem S1024x1024 .f32 := win0_2.stage (cfg0.slots t 2)
/-- The scratch: a whole buffer of the kernel's own. -/
abbrev scM : Memref sig .tc .vmem S4096x1024 .bf16 := Memref.whole cc0_scratch0

/-- The class invariant, the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Row block of the embeddings at point t, and the table tile the pipeline hands the body at point t. -/
abbrev xblk (c : Dev nD) (t : Fin cfg0.N) : Vec F S1024x1024 .f32 := iblk m c 0 t
abbrev wblkAt (c : Dev nD) (t : Fin cfg0.N) : Vec F S1024x1024 .f32 := iblk m c 1 t

/-- Tile j of the table is handed to the body at point j. -/
def jpt (j : Fin 4) : Fin cfg0.N := ⟨j.val, by rw [hN]; omega⟩
def jOf (t : Fin cfg0.N) : Fin 4 := ⟨t.val % 4, Nat.mod_lt _ (by decide)⟩
abbrev wtile (c : Dev nD) (j : Fin 4) : Vec F S1024x1024 .f32 := wblkAt m c (jpt j)

theorem jpt_jOf (t : Fin cfg0.N) (h : t.val < 4) : jpt (jOf t) = t := Fin.ext (Nat.mod_eq_of_lt h)

/-- Row 1024·j + x₀, column x₁ of the scratch. -/
def tileIdx (j : Fin 4) (x : S1024x1024.Idx) : S4096x1024.Idx :=
  ix2 (⟨1024 * j.val + (x 0).val, by have := idx2_lt0 x; have := j.isLt; omega⟩ : Fin 4096) (⟨(x 1).val, idx2_lt1 x⟩ : Fin 1024)

/-! ## The scratch invariant -/

/-- The first n tiles of the scratch (all four once n ≥ 4) are the narrowed tiles of the table. -/
def Inv (c : Dev nD) (n : ℕ) (d : Vec F S4096x1024 .bf16) : Prop :=
  ∀ j : Fin 4, j.val < n → ∀ x : S1024x1024.Idx, d (tileIdx j x) = narrowed (wtile m c j) x

/-- Reading tile t mod 4 of a scratch in which it is already the narrowed table tile. -/
theorem tile_eq (c : Dev nD) (t : Fin cfg0.N) (n : ℕ) (d : Vec F S4096x1024 .bf16) (hd : Inv m c n d) (hlt : t.val % 4 < n) :
    tileOf (grid0.coords t) d = narrowed (wtile m c (jOf t)) := by
  funext x
  show d ((Rect.unit (s := S4096x1024) (k0_off2 (grid0.coords t)) S1024x1024.size (Facts₀.k0_off2_inb (grid0.coords t))).idx x) = _
  have hi : (Rect.unit (s := S4096x1024) (k0_off2 (grid0.coords t)) S1024x1024.size (Facts₀.k0_off2_inb (grid0.coords t))).idx x = tileIdx (jOf t) x := by
    funext a; apply Fin.ext
    match a with
    | ⟨0, _⟩ => show k0_off2 (grid0.coords t) 0 + 1 * (x 0).val = 1024 * (t.val % 4) + (x 0).val
                rw [congrFun (off2_eq t) 0]; show 1024 * (t.val % 4) + 1 * (x 0).val = _; omega
    | ⟨1, _⟩ => show k0_off2 (grid0.coords t) 1 + 1 * (x 1).val = (x 1).val
                rw [congrFun (off2_eq t) 1]; show 0 + 1 * (x 1).val = _; omega
  rw [hi]
  exact hd (jOf t) hlt x

/-- Storing tile t at point t < 4 extends the invariant by one tile. -/
theorem inv_step (c : Dev nD) (t : Fin cfg0.N) (h0 : t.val < 4) (hc : firstRow (grid0.coords t)) (d : Vec F S4096x1024 .bf16)
    (hd : Inv m c t.val d) :
    Inv m c (t.val + 1) (scratchAfter (grid0.coords t) scM (Memref.isWhole_whole _) hc (wblkAt m c t) d) := by
  intro j hj x
  have hmod : t.val % 4 = t.val := Nat.mod_eq_of_lt h0
  have hx0 : (x 0).val < 1024 := idx2_lt0 x
  unfold scratchAfter
  by_cases hjt : j.val = t.val
  · refine (View.read_writes_cons_rows_of_mem scM.view _ (Facts₀.k0_off1_inb (grid0.coords t) hc) (narrowed (wblkAt m c t)) []
      (tileIdx j x) x (off1_eq t)
      (by show 1024 * j.val + (x 0).val = 1024 * (t.val % 4) + (x 0).val; rw [hjt, hmod]) rfl).trans ?_
    have hjp : jpt j = t := Fin.ext hjt
    show narrowed (wblkAt m c t) x = narrowed (wblkAt m c (jpt j)) x
    rw [hjp]
  · refine (View.read_writes_cons_rows_of_not_mem scM.view _ (W := 1024) (Facts₀.k0_off1_inb (grid0.coords t) hc) (narrowed (wblkAt m c t)) []
      (tileIdx j x) (off1_eq t) rfl
      (by left; show 1024 * j.val + (x 0).val < 1024 * (t.val % 4); rw [hmod]; omega)).trans ?_
    rw [View.writes_nil, Memref.IsWhole.read_unread]
    exact hd j (by omega) x

/-- The region invariant before point n: the scratch at some contents satisfying the tile invariant, and the
    generator register at some state. -/
def PhiS (c : Dev nD) (n : ℕ) : sProp 𝕄 :=
  iprop(iprop((∃ d, ⌜Inv m c n d⌝ ∗ owns (c : Thread nD τ) scM fullShare d)) ∗ (∃ r, prngReg c r))

/-! ## What the body leaves in the output window -/

/-- The output block at point t = 4·i + j: row block i of the embeddings, narrowed, times the transpose of the
    narrowed tile j of the table, accumulated from zero. -/
def outAt (c : Dev nD) (t : Fin cfg0.N) : Vec F S1024x1024 .f32 :=
  k0_pay2 (xblk m c t) (narrowed (wtile m c (jOf t)))

theorem outAt_first (c : Dev nD) (t : Fin cfg0.N) (h0 : t.val < 4) :
    outAt m c t = k0_pay2 (xblk m c t) (narrowed (wblkAt m c t)) := by
  unfold outAt wtile; rw [jpt_jOf t h0]

theorem outAt_later (c : Dev nD) (t : Fin cfg0.N) (h0 : ¬t.val < 4) (d : Vec F S4096x1024 .bf16) (hd : Inv m c t.val d) :
    outAt m c t = k0_pay2 (xblk m c t) (tileOf (grid0.coords t) d) := by
  unfold outAt; rw [tile_eq m c t t.val d hd (by have := Nat.mod_lt t.val (show 0 < 4 by decide); omega)]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1600000 in
/-- The body at any point. On the first row block the stored tile extends the scratch invariant by one tile and the
    product reads that tile back; later the invariant names the tile the product reads. The inputs' buffers hold
    their blocks before and after; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    after0, after1, after2]
  rw [show (dats m 0 c).Φ t.castSucc = PhiS m c t.val from rfl,
    show (dats m 0 c).Φ t.succ = PhiS m c (t.val + 1) from rfl]
  unfold PhiS
  by_cases h0 : t.val < 4
  · rw [outAt_first m c t h0]
    iintro ⟨⟨⟨%d, %hd, HS0⟩, Hg⟩, Ho, ⟨%d0, H0⟩, ⟨%d1, H1⟩, ⟨%d2, H2⟩⟩
    iapply ((run_first c (grid0.coords t) _ _ _ _ _ _ _ _ ((hfirst t).mpr h0) (iblk m c 0 t) (iblk m c 1 t) d) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iexists _; isplitr; · ipureintro; exact inv_step m c t h0 ((hfirst t).mpr h0) d hd
        iexact HS0
      iexact Hg
    isplitl [Ho]; · iexact Ho
    isplitl [H0]; · iexact H0
    isplitl [H1]; · iexact H1
    iexact H2
  · iintro ⟨⟨⟨%d, %hd, HS0⟩, Hg⟩, Ho, ⟨%d0, H0⟩, ⟨%d1, H1⟩, ⟨%d2, H2⟩⟩
    rw [outAt_later m c t h0 d hd]
    iapply ((run_later c (grid0.coords t) _ _ _ _ _ _ _ _ (fun h => h0 ((hfirst t).mp h)) (iblk m c 0 t) (iblk m c 1 t) d) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iexists _; isplitr
        · ipureintro; intro j hj x; exact hd j (by have := j.isLt; omega) x
        iexact HS0
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch holds anything: no tile is claimed. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS0⟩, Hg⟩
  isplitl [HS0]
  · iexists d; isplitr
    · ipureintro; intro j hj; exact absurd hj (Nat.not_lt_zero _)
    iexact HS0
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS0⟩, Hg⟩
  isplitl [HS0]
  · iexists d; iexact HS0
  iexact Hg

/-! ## The run and the frame -/

set_option backward.isDefEq.respectTransparency.types false in
/-- Every weakly fair execution of @main terminates; every array of the pipeline ends at what the proof data
    compute for it, every other unscoped buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyRuns.lean ====
/-
  The kernel body at one grid point, run on its staging buffers and its scratch.

  The grid has 32 points, point t = 4·i + j for the row block i of the token embeddings and the tile j of the table.
  The body keeps a scratch copy of the whole table in the narrow float format. At the four points of the first row
  block (i = 0) it first narrows the table tile it was handed and stores it into rows [1024·j, 1024·j + 1024) of the
  scratch; at every point it then multiplies the narrowed row block of the embeddings by the transpose of rows
  [1024·j, 1024·j + 1024) of the scratch and stores the product into the output block.

  Two runs, one per side of the branch. On the first row block the stored tile is read back, so the product does
  not depend on what the scratch held before; at the later points the product reads the scratch as it was left.
-/
import proofs.«146951_g68109591380859_cont_9to1c4b_295_12_alg».proof.Proof.Gen.KernelIdeal.Frame
import proofs.«146951_g68109591380859_cont_9to1c4b_295_12_alg».proof.Proof.Gen.KernelIdeal.Skeleton
import Idealize.ShloMosaic.Lib.Pipeline.Value
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch: taken exactly on the first row block. -/
abbrev firstRow (i : grid0.Coords) : Prop := k0_cond1 i = 1#1

theorem hz : (![0, 0] : Fin 2 → Nat) = fun _ => 0 := funext fun a => by fin_cases a <;> rfl

/-- The table tile as the body stores it: the tile it was handed, narrowed. -/
abbrev narrowed (x1 : Vec F S1024x1024 .f32) : Vec F S1024x1024 .bf16 := k0_pay1 x1

/-- What the scratch reads after the store of the first row block: rows [1024·j, 1024·j + 1024) overwritten. -/
def scratchAfter (i : grid0.Coords) (arg5 : Memref sig .tc .vmem S4096x1024 .bf16) (harg5 : arg5.IsWhole) (hc0 : firstRow i)
    (x1 : Vec F S1024x1024 .f32) (xs0 : Vec F S4096x1024 .bf16) : Vec F S4096x1024 .bf16 :=
  arg5.view.read (Elt F) (arg5.view.writes (Elt F) (harg5.unread xs0)
    [⟨Rect.unit (s := S4096x1024) (k0_off1 i) S1024x1024.size (Facts₀.k0_off1_inb i hc0), narrowed x1⟩])

/-- Rows [1024·j, 1024·j + 1024) of the scratch, as the product reads them. -/
abbrev tileOf (i : grid0.Coords) (xs0 : Vec F S4096x1024 .bf16) : Vec F S1024x1024 .bf16 :=
  View.ld xs0 (Rect.unit (s := S4096x1024) (k0_off2 i) S1024x1024.size (Facts₀.k0_off2_inb i))

set_option maxHeartbeats 1000000 in
/-- On the first row block: the output block ends at the product of the embeddings' block with the narrowed tile
    just stored, and the scratch at its contents with that tile's rows overwritten. -/
theorem run_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S4096x1024 .bf16) (harg5 : arg5.IsWhole) (hc0 : firstRow i)
    (x0 : Vec F S1024x1024 .f32) (x1 : Vec F S1024x1024 .f32) (xs0 : Vec F S4096x1024 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ owns (c : Thread nD τ) arg4 fullShare (k0_pay2 x0 (narrowed x1))
                ∗ owns (c : Thread nD τ) arg5 fullShare (scratchAfter i arg5 harg5 hc0 x1 xs0)) -∗ K ⟨⟩))
          ⊢ wp frame (wpE (defs₀ (F := F)) Variants.none c none) E (cc0__readout_matmul_kernel i arg2 harg2 arg3 harg3 arg4 harg4 arg5 harg5) K := by
    intro E K
    simp only [cc0__readout_matmul_kernel_eq_skeleton]; unfold cc0__readout_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_singleton_self _, View.mem_set_unit_zero hz Facts₀.inb_S1024x1024_S1024x1024_0_0 y⟩),
        View.canon_unit_zero hz]
      simp only [View.readAt_eq_ld, harg2.read_unread, harg3.read_unread, View.ld_unit_zero (S := S1024x1024) hz]
      exact congrArg (k0_pay2 x0) (View.readCov_cons_toLoadRect _ _ _ _)
    iexists _; isplitr; swap; · iexact HS0
    ipureintro
    unfold scratchAfter narrowed
    simp only [View.readAt_eq_ld, harg3.read_unread, View.ld_unit_zero (S := S1024x1024) hz]
    rfl

set_option maxHeartbeats 1000000 in
/-- At the later points: the output block ends at the product of the embeddings' block with rows
    [1024·j, 1024·j + 1024) of the scratch as found, and the scratch is left as found. -/
theorem run_later (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S4096x1024 .bf16) (harg5 : arg5.IsWhole) (hc0 : ¬firstRow i)
    (x0 : Vec F S1024x1024 .f32) (x1 : Vec F S1024x1024 .f32) (xs0 : Vec F S4096x1024 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ owns (c : Thread nD τ) arg4 fullShare (k0_pay2 x0 (tileOf i xs0))
                ∗ owns (c : Thread nD τ) arg5 fullShare xs0) -∗ K ⟨⟩))
          ⊢ wp frame (wpE (defs₀ (F := F)) Variants.none c none) E (cc0__readout_matmul_kernel i arg2 harg2 arg3 harg3 arg4 harg4 arg5 harg5) K := by
    intro E K
    simp only [cc0__readout_matmul_kernel_eq_skeleton]; unfold cc0__readout_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_singleton_self _, View.mem_set_unit_zero hz Facts₀.inb_S1024x1024_S1024x1024_0_0 y⟩),
        View.canon_unit_zero hz]
      simp only [View.readAt_eq_ld, harg2.read_unread, harg5.read_unread, View.ld_unit_zero (S := S1024x1024) hz]
      rfl
    iexists _; isplitr; swap; · iexact HS0
    ipureintro; exact harg5.read_unread _

end Cert.KernelIdeal.Body

end
-- ==== Proof.BodyData.lean ====
/-
  The proof data of the kernel's one pipelined call and its run.

  Across the 32 grid points the kernel carries the narrowed table in its scratch. The invariant before point n says
  which tiles of the scratch are already the narrowed table: tile j (rows [1024·j, 1024·j + 1024)) for every j < n,
  which is every tile from point 4 on. With it the block the body leaves in the output window at point t = 4·i + j
  is named exactly: the product of row block i of the embeddings with the transpose of the narrowed tile j of the
  table, whether that tile was stored at this point (first row block) or at point j.
-/
import proofs.«146951_g68109591380859_cont_9to1c4b_295_12_alg».proof.Proof.BodyRuns
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the grid -/

theorem hN : cfg0.N = 32 := N_0

/-- The branch is taken exactly at the first four points. -/
theorem hfirst : ∀ t : Fin cfg0.N, firstRow (grid0.coords t) ↔ t.val < 4 :=
  (by decide +kernel : ∀ t : Fin grid0.N, firstRow (grid0.coords t) ↔ t.val < 4)

/-- The stored tile starts at row 1024·(t mod 4), column 0; -/
theorem off1_eq : ∀ t : Fin cfg0.N, k0_off1 (grid0.coords t) = ![1024 * (t.val % 4), 0] :=
  (by decide +kernel : ∀ t : Fin grid0.N, k0_off1 (grid0.coords t) = ![1024 * (t.val % 4), 0])

/-- and so does the tile the product reads. -/
theorem off2_eq : ∀ t : Fin cfg0.N, k0_off2 (grid0.coords t) = ![1024 * (t.val % 4), 0] :=
  (by decide +kernel : ∀ t : Fin grid0.N, k0_off2 (grid0.coords t) = ![1024 * (t.val % 4), 0])

/-! ## Memrefs and blocks, at their literal types -/

abbrev ms0 (t : Fin cfg0.N) : Memref sig .tc .vmem S1024x1024 .f32 := win0_0.stage (cfg0.slots t 0)
abbrev ms1 (t : Fin cfg0.N) : Memref sig .tc .vmem S1024x1024 .f32 := win0_1.stage (cfg0.slots t 1)
abbrev ms2 (t : Fin cfg0.N) : Memref sig .tc .vmem S1024x1024 .f32 := win0_2.stage (cfg0.slots t 2)
/-- The scratch: a whole buffer of the kernel's own. -/
abbrev scM : Memref sig .tc .vmem S4096x1024 .bf16 := Memref.whole cc0_scratch0

/-- The class invariant, the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Row block of the embeddings at point t, and the table tile the pipeline hands the body at point t. -/
abbrev xblk (c : Dev nD) (t : Fin cfg0.N) : Vec F S1024x1024 .f32 := iblk m c 0 t
abbrev wblkAt (c : Dev nD) (t : Fin cfg0.N) : Vec F S1024x1024 .f32 := iblk m c 1 t

/-- Tile j of the table is handed to the body at point j. -/
def jpt (j : Fin 4) : Fin cfg0.N := ⟨j.val, by rw [hN]; omega⟩
def jOf (t : Fin cfg0.N) : Fin 4 := ⟨t.val % 4, Nat.mod_lt _ (by decide)⟩
abbrev wtile (c : Dev nD) (j : Fin 4) : Vec F S1024x1024 .f32 := wblkAt m c (jpt j)

theorem jpt_jOf (t : Fin cfg0.N) (h : t.val < 4) : jpt (jOf t) = t := Fin.ext (Nat.mod_eq_of_lt h)

/-- Row 1024·j + x₀, column x₁ of the scratch. -/
def tileIdx (j : Fin 4) (x : S1024x1024.Idx) : S4096x1024.Idx :=
  ix2 (⟨1024 * j.val + (x 0).val, by have := idx2_lt0 x; have := j.isLt; omega⟩ : Fin 4096) (⟨(x 1).val, idx2_lt1 x⟩ : Fin 1024)

/-! ## The scratch invariant -/

/-- The first n tiles of the scratch (all four once n ≥ 4) are the narrowed tiles of the table. -/
def Inv (c : Dev nD) (n : ℕ) (d : Vec F S4096x1024 .bf16) : Prop :=
  ∀ j : Fin 4, j.val < n → ∀ x : S1024x1024.Idx, d (tileIdx j x) = narrowed (wtile m c j) x

/-- Reading tile t mod 4 of a scratch in which it is already the narrowed table tile. -/
theorem tile_eq (c : Dev nD) (t : Fin cfg0.N) (n : ℕ) (d : Vec F S4096x1024 .bf16) (hd : Inv m c n d) (hlt : t.val % 4 < n) :
    tileOf (grid0.coords t) d = narrowed (wtile m c (jOf t)) := by
  funext x
  show d ((Rect.unit (s := S4096x1024) (k0_off2 (grid0.coords t)) S1024x1024.size (Facts₀.k0_off2_inb (grid0.coords t))).idx x) = _
  have hi : (Rect.unit (s := S4096x1024) (k0_off2 (grid0.coords t)) S1024x1024.size (Facts₀.k0_off2_inb (grid0.coords t))).idx x = tileIdx (jOf t) x := by
    funext a; apply Fin.ext
    match a with
    | ⟨0, _⟩ => show k0_off2 (grid0.coords t) 0 + 1 * (x 0).val = 1024 * (t.val % 4) + (x 0).val
                rw [congrFun (off2_eq t) 0]; show 1024 * (t.val % 4) + 1 * (x 0).val = _; omega
    | ⟨1, _⟩ => show k0_off2 (grid0.coords t) 1 + 1 * (x 1).val = (x 1).val
                rw [congrFun (off2_eq t) 1]; show 0 + 1 * (x 1).val = _; omega
  rw [hi]
  exact hd (jOf t) hlt x

/-- Storing tile t at point t < 4 extends the invariant by one tile. -/
theorem inv_step (c : Dev nD) (t : Fin cfg0.N) (h0 : t.val < 4) (hc : firstRow (grid0.coords t)) (d : Vec F S4096x1024 .bf16)
    (hd : Inv m c t.val d) :
    Inv m c (t.val + 1) (scratchAfter (grid0.coords t) scM (Memref.isWhole_whole _) hc (wblkAt m c t) d) := by
  intro j hj x
  have hmod : t.val % 4 = t.val := Nat.mod_eq_of_lt h0
  have hx0 : (x 0).val < 1024 := idx2_lt0 x
  unfold scratchAfter
  by_cases hjt : j.val = t.val
  · refine (View.read_writes_cons_rows_of_mem scM.view _ (Facts₀.k0_off1_inb (grid0.coords t) hc) (narrowed (wblkAt m c t)) []
      (tileIdx j x) x (off1_eq t)
      (by show 1024 * j.val + (x 0).val = 1024 * (t.val % 4) + (x 0).val; rw [hjt, hmod]) rfl).trans ?_
    have hjp : jpt j = t := Fin.ext hjt
    show narrowed (wblkAt m c t) x = narrowed (wblkAt m c (jpt j)) x
    rw [hjp]
  · refine (View.read_writes_cons_rows_of_not_mem scM.view _ (W := 1024) (Facts₀.k0_off1_inb (grid0.coords t) hc) (narrowed (wblkAt m c t)) []
      (tileIdx j x) (off1_eq t) rfl
      (by left; show 1024 * j.val + (x 0).val < 1024 * (t.val % 4); rw [hmod]; omega)).trans ?_
    rw [View.writes_nil, Memref.IsWhole.read_unread]
    exact hd j (by omega) x

/-- The region invariant before point n: the scratch at some contents satisfying the tile invariant, and the
    generator register at some state. -/
def PhiS (c : Dev nD) (n : ℕ) : sProp 𝕄 :=
  iprop(iprop((∃ d, ⌜Inv m c n d⌝ ∗ owns (c : Thread nD τ) scM fullShare d)) ∗ (∃ r, prngReg c r))

/-! ## What the body leaves in the output window -/

/-- The output block at point t = 4·i + j: row block i of the embeddings, narrowed, times the transpose of the
    narrowed tile j of the table, accumulated from zero. -/
def outAt (c : Dev nD) (t : Fin cfg0.N) : Vec F S1024x1024 .f32 :=
  k0_pay2 (xblk m c t) (narrowed (wtile m c (jOf t)))

theorem outAt_first (c : Dev nD) (t : Fin cfg0.N) (h0 : t.val < 4) :
    outAt m c t = k0_pay2 (xblk m c t) (narrowed (wblkAt m c t)) := by
  unfold outAt wtile; rw [jpt_jOf t h0]

theorem outAt_later (c : Dev nD) (t : Fin cfg0.N) (h0 : ¬t.val < 4) (d : Vec F S4096x1024 .bf16) (hd : Inv m c t.val d) :
    outAt m c t = k0_pay2 (xblk m c t) (tileOf (grid0.coords t) d) := by
  unfold outAt; rw [tile_eq m c t t.val d hd (by have := Nat.mod_lt t.val (show 0 < 4 by decide); omega)]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1600000 in
/-- The body at any point. On the first row block the stored tile extends the scratch invariant by one tile and the
    product reads that tile back; later the invariant names the tile the product reads. The inputs' buffers hold
    their blocks before and after; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    after0, after1, after2]
  rw [show (dats m 0 c).Φ t.castSucc = PhiS m c t.val from rfl,
    show (dats m 0 c).Φ t.succ = PhiS m c (t.val + 1) from rfl]
  unfold PhiS
  by_cases h0 : t.val < 4
  · rw [outAt_first m c t h0]
    iintro ⟨⟨⟨%d, %hd, HS0⟩, Hg⟩, Ho, ⟨%d0, H0⟩, ⟨%d1, H1⟩, ⟨%d2, H2⟩⟩
    iapply ((run_first c (grid0.coords t) _ _ _ _ _ _ _ _ ((hfirst t).mpr h0) (iblk m c 0 t) (iblk m c 1 t) d) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iexists _; isplitr; · ipureintro; exact inv_step m c t h0 ((hfirst t).mpr h0) d hd
        iexact HS0
      iexact Hg
    isplitl [Ho]; · iexact Ho
    isplitl [H0]; · iexact H0
    isplitl [H1]; · iexact H1
    iexact H2
  · iintro ⟨⟨⟨%d, %hd, HS0⟩, Hg⟩, Ho, ⟨%d0, H0⟩, ⟨%d1, H1⟩, ⟨%d2, H2⟩⟩
    rw [outAt_later m c t h0 d hd]
    iapply ((run_later c (grid0.coords t) _ _ _ _ _ _ _ _ (fun h => h0 ((hfirst t).mp h)) (iblk m c 0 t) (iblk m c 1 t) d) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iexists _; isplitr
        · ipureintro; intro j hj x; exact hd j (by have := j.isLt; omega) x
        iexact HS0
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch holds anything: no tile is claimed. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS0⟩, Hg⟩
  isplitl [HS0]
  · iexists d; isplitr
    · ipureintro; intro j hj; exact absurd hj (Nat.not_lt_zero _)
    iexact HS0
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS0⟩, Hg⟩
  isplitl [HS0]
  · iexists d; iexact HS0
  iexact Hg

/-! ## The run and the frame -/

set_option backward.isDefEq.respectTransparency.types false in
/-- Every weakly fair execution of @main terminates; every array of the pipeline ends at what the proof data
    compute for it, every other unscoped buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.MatSpec.lean ====
/-
  The mathematics both programs compute: the logits matrix of token embeddings x (8192 rows of 1024 numbers)
  against an embedding table w (4096 rows of 1024 numbers),
      out[n, l] = ∑ d, x[n, d] · w[l, d],
  over the extended reals. Stated entry by entry with explicit row and column coordinates.
-/
import Idealize.ShloMosaic.PureOps.Ideal
import Idealize.ShloMosaic.Lib.ValueIdx

noncomputable section

open scoped BigOperators

namespace Cert.MatSpec

open Idealize.ShloMosaic Idealize.ShloMosaic.ValueIdx

/-- The token embeddings' shape, the table's, and the logits'. -/
abbrev SX : Shape := ⟨2, ![8192, 1024]⟩
abbrev SW : Shape := ⟨2, ![4096, 1024]⟩
abbrev SO : Shape := ⟨2, ![8192, 4096]⟩

/-- Entry (r, c) of the logits: row r of x against row c of w. -/
def logitsAt (x : FVec Ideal SX .f32) (w : FVec Ideal SW .f32) (r : Fin 8192) (c : Fin 4096) : EReal :=
  ∑ k : Fin 1024, x (ix2 r k) * w (ix2 c k)

/-- The logits matrix. -/
def logits (x : FVec Ideal SX .f32) (w : FVec Ideal SW .f32) : FVec Ideal SO .f32 :=
  fun i => logitsAt x w (i 0) (i 1)

theorem logits_apply (x : FVec Ideal SX .f32) (w : FVec Ideal SW .f32) (r : Fin 8192) (c : Fin 4096) :
    logits x w (ix2 r c) = ∑ k : Fin 1024, x (ix2 r k) * w (ix2 c k) := rfl

end Cert.MatSpec

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.KernelValue.lean ====
/-
  What the kernel's result array holds after the run, over the extended reals.

  At point t = 4·i + j the body leaves in the output window the product of row block i of the embeddings with the
  transpose of tile j of the table: the change of float format is the identity over the extended reals, so the
  narrowed operands are the operands themselves, and the product accumulated from zero is the plain sum over the
  shared axis. Entry (p, q) of that block is therefore entry (1024·i + p, 1024·j + q) of the logits matrix. The
  pipeline writes block (i, j) of the result array back at point t, and the 32 blocks tile the array: the array
  ends holding the logits matrix.
-/
import proofs.«146951_g68109591380859_cont_9to1c4b_295_12_alg».proof.Proof.BodyData
import proofs.«146951_g68109591380859_cont_9to1c4b_295_12_alg».proof.Proof.MatSpec
import proofs.«146951_g68109591380859_cont_9to1c4b_295_12_alg».proof.Proof.LibDotT
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.KernelValue

open Cert.KernelIdeal Cert.KernelIdeal.Gen Cert.KernelIdeal.Body Cert.MatSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The body's product at an entry -/

/-- Over the extended reals the narrowed tile is the tile. -/
theorem narrowed_eq (wt : Vec Ideal S1024x1024 .f32) : (narrowed wt : S1024x1024.Idx → EReal) = wt :=
  (shapeCast_self _ _).trans rfl

/-- Entry (p, q) of the block the body stores: row p of the embeddings' block against row q of the tile. -/
theorem pay_at (x wt : Vec Ideal S1024x1024 .f32) (p q : Fin 1024) :
    k0_pay2 x (narrowed wt) (ix2 p q) = ∑ k : Fin 1024, x (ix2 p k) * wt (ix2 q k) := by
  refine (Cert.LibDotT.matmul_zero_at_T (φ₁ := .bf16) (φ₂ := .bf16) dot_S1024x1024_S1024x1024_S1024x1024_1_1_0_0_n_n rfl rfl rfl rfl rfl rfl none _
    (narrowed wt) p q).trans ?_
  refine Finset.sum_congr rfl fun k _ => ?_
  exact congrArg (x (ix2 p k) * ·) (congrFun (narrowed_eq wt) (ix2 q k))

/-! ## The blocks' places in their arrays, decided over the grid -/

theorem idx_facts : ∀ t : Fin cfg0.N, win0_0.index t (0 : Fin 2) = t.val / 4 ∧ win0_0.index t (1 : Fin 2) = 0
    ∧ win0_2.index t (0 : Fin 2) = t.val / 4 ∧ win0_2.index t (1 : Fin 2) = t.val % 4 :=
  (by decide +kernel : ∀ t : Fin grid0.N, win0_0.index t (0 : Fin 2) = t.val / 4 ∧ win0_0.index t (1 : Fin 2) = 0
    ∧ win0_2.index t (0 : Fin 2) = t.val / 4 ∧ win0_2.index t (1 : Fin 2) = t.val % 4)

theorem tile_facts : ∀ j : Fin 4, win0_1.index (jpt j) (0 : Fin 2) = j.val ∧ win0_1.index (jpt j) (1 : Fin 2) = 0 := by
  decide +kernel

/-- Row p, column k of the embeddings' block at point t is row 1024·(t / 4) + p, column k of the embeddings. -/
theorem xblk_at (c : Dev nD) (t : Fin cfg0.N) (p k : Fin 1024) :
    xblk m c t (ix2 p k)
      = V m c main_arg0 (ix2 (⟨1024 * (t.val / 4) + p.val, by have : t.val < 32 := lt_of_lt_of_eq t.isLt hN; omega⟩ : Fin 8192) k) := by
  unfold xblk iblk
  rw [View.read_apply]
  refine congrArg (V m c main_arg0) ?_
  funext a; apply Fin.ext
  match a with
  | ⟨0, _⟩ => show win0_0.index t (0 : Fin 2) * 1024 + 1 * p.val = 1024 * (t.val / 4) + p.val
              rw [(idx_facts t).1]; omega
  | ⟨1, _⟩ => show win0_0.index t (1 : Fin 2) * 1024 + 1 * k.val = k.val
              rw [(idx_facts t).2.1]; omega

/-- Row q, column k of tile j of the table is row 1024·j + q, column k of the table. -/
theorem wtile_at (c : Dev nD) (j : Fin 4) (q k : Fin 1024) :
    wtile m c j (ix2 q k)
      = V m c main_arg1 (ix2 (⟨1024 * j.val + q.val, by have := j.isLt; omega⟩ : Fin 4096) k) := by
  unfold wtile wblkAt iblk
  rw [View.read_apply]
  refine congrArg (V m c main_arg1) ?_
  funext a; apply Fin.ext
  match a with
  | ⟨0, _⟩ => show win0_1.index (jpt j) (0 : Fin 2) * 1024 + 1 * q.val = 1024 * j.val + q.val
              rw [(tile_facts j).1]; omega
  | ⟨1, _⟩ => show win0_1.index (jpt j) (1 : Fin 2) * 1024 + 1 * k.val = k.val
              rw [(tile_facts j).2]; omega

/-- Entry (p, q) of the block left at point t is entry (1024·(t / 4) + p, 1024·(t mod 4) + q) of the logits. -/
theorem out_entry (c : Dev nD) (t : Fin cfg0.N) (p q : Fin 1024) :
    outAt m c t (ix2 p q)
      = logitsAt (V m c main_arg0) (V m c main_arg1)
          (⟨1024 * (t.val / 4) + p.val, by have : t.val < 32 := lt_of_lt_of_eq t.isLt hN; omega⟩ : Fin 8192)
          (⟨1024 * (t.val % 4) + q.val, by have := Nat.mod_lt t.val (show 0 < 4 by decide); omega⟩ : Fin 4096) := by
  unfold outAt
  rw [pay_at]
  unfold logitsAt
  refine Finset.sum_congr rfl fun k _ => ?_
  rw [xblk_at m c t p k, wtile_at m c (jOf t) q k]
  rfl

/-! ## From blocks to the array -/

/-- What point t writes back is block t of the logits matrix. -/
theorem flushed_eq (c : Dev nD) (t : Fin cfg0.N) :
    (dats m 0 c).flushed 2 t
      = ((cfg0.win 2).blk t).view.read (Elt Ideal) (logits (V m c main_arg0) (V m c main_arg1)) := by
  show (cfg0.win 2).cut (grid0.coords t) ((dats m 0 c).after 2 t) = _
  rw [after2]
  funext y
  show outAt m c t y = logits (V m c main_arg0) (V m c main_arg1) (((cfg0.win 2).blk t).view.emb y)
  refine ((congrArg (outAt m c t) (eq_ix2 (n0 := 1024) (n1 := 1024) y)).trans (out_entry m c t (y 0) (y 1))).trans ?_
  show logitsAt _ _ _ _ = logitsAt (V m c main_arg0) (V m c main_arg1) ((((cfg0.win 2).blk t).view.emb y) 0) ((((cfg0.win 2).blk t).view.emb y) 1)
  have h0 : 1024 * (t.val / 4) + (y 0).val = win0_2.index t (0 : Fin 2) * 1024 + 1 * (y 0).val := by
    rw [(idx_facts t).2.2.1]; omega
  have h1 : 1024 * (t.val % 4) + (y 1).val = win0_2.index t (1 : Fin 2) * 1024 + 1 * (y 1).val := by
    rw [(idx_facts t).2.2.2]; omega
  exact congrArg₂ (logitsAt (V m c main_arg0) (V m c main_arg1)) (Fin.ext h0) (Fin.ext h1)

/-- An index of the result array is in point t's block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the result array lies in the block of the point 4·(row / 1024) + column / 1024. -/
theorem cover (i : S8192x4096.Idx) :
    ∃ t : Fin cfg0.N, (cfg0.win 2).flush t = true ∧ i ∈ ((cfg0.win 2).blk t).view.set := by
  have hi0 : (i 0).val < 8192 := idx2_lt0 i
  have hi1 : (i 1).val < 4096 := idx2_lt1 i
  let t : Fin cfg0.N := ⟨4 * ((i 0).val / 1024) + (i 1).val / 1024, by rw [hN]; omega⟩
  have ht : t.val = 4 * ((i 0).val / 1024) + (i 1).val / 1024 := rfl
  obtain ⟨-, -, e0, e1⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024
              rw [e0, ht]; omega
  | ⟨1, _⟩ => show win0_2.index t (1 : Fin 2) * 1024 ≤ (i 1).val ∧ (i 1).val < win0_2.index t (1 : Fin 2) * 1024 + 1024
              rw [e1, ht]; omega

/-- The result array after the run is the logits matrix of the argument arrays. -/
theorem final (c : Dev nD) :
    (dats m 0 c).arrAt 2 cfg0.N = logits (V m c main_arg0) (V m c main_arg1) :=
  (dats m 0 c).arrAt_eq_of_cover 2 (logits (V m c main_arg0) (V m c main_arg1)) (fun t _ => flushed_eq m c t) cover

/-! ## The run, read -/

/-- The kernel's run: the result array at the logits matrix of the arguments, the arguments unchanged. -/
theorem run : θ_run defs (onTc (τ := τ) (main (F := Ideal))) ⟨m, fun _ => 0, ρ⟩ fun r => ∀ c : Dev nD,
      r.2.mem ((c.tc : Thread nD τ).loc main_v0)
        = logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1 2).trans (final m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.KernelValue

end
-- ==== Proof.LibGatherRows.lean ====
/-
  A gather of whole rows of a table, and of entries of a vector, read at one element. The start indices are an
  n × 1 column of position words; result row e is the table's row at position word e read signed and clipped into the
  table (a negative word reads row 0, one past the end reads the last row).
-/
import Idealize.ShloMosaic.PureOps.ShapeOps
import Idealize.ShloMosaic.PureOps.Dims
import Idealize.ShloMosaic.Lib.ValueIdx
import Idealize.ShloMosaic.Lib.StableHlo.Predicate

noncomputable section

namespace Cert.LibGatherRows

open Idealize.ShloMosaic Idealize.ShloMosaic.ValueIdx

/-- Rows of an N × D table gathered at n position words: result (e, k) is the table at the clipped position of word e and column k. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  have h0 : (d.operandIdx (ix2 e k) idx (0 : Fin 2)).val = min (idx (ix2 e (0 : Fin 1))).toInt.toNat (N - 1) := by
    show d.start (ix2 e k) idx (0 : Fin 2) + d.batchCoord (ix2 e k) (0 : Fin 2) + d.offCoord (ix2 e k) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e (0 : Fin 1) := by
      subst hd
      funext b; refine Fin.ext ?_
      match b with
      | ⟨0, _⟩ => rfl
      | ⟨1, _⟩ => rfl
    rw [hsi]
    rfl
  have h1 : (d.operandIdx (ix2 e k) idx (1 : Fin 2)).val = k.val := by
    show d.start (ix2 e k) idx (1 : Fin 2) + d.batchCoord (ix2 e k) (1 : Fin 2) + d.offCoord (ix2 e k) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-- Entries of an N-vector gathered at n position words: result e is the vector at the clipped position of word e. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.RefValue.lean ====
/-
  The value of the reference program, entry by entry. Its gather indices are the positions 0, 1, …, 4095 themselves:
  no position is negative, so none is wrapped by adding the table's height; each lies between 0 and 4095, so the
  in-range mask is set everywhere and the clipped row position of entry e is e. Hence the rows taken from the table
  are the table, and the contraction of x's columns with the taken rows' columns is the logits matrix
      out[r, c] = ∑ k, x[r, k] · w[c, k].
-/
import proofs.«146951_g68109591380859_cont_9to1c4b_295_12_alg».proof.Proof.Gen.ReferenceIdeal
import proofs.«146951_g68109591380859_cont_9to1c4b_295_12_alg».proof.Proof.MatSpec
import proofs.«146951_g68109591380859_cont_9to1c4b_295_12_alg».proof.Proof.LibDotT
import proofs.«146951_g68109591380859_cont_9to1c4b_295_12_alg».proof.Proof.LibGatherRows
import Idealize.ShloMosaic.Lib.StableHlo.Predicate
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx
open Idealize.ShloMosaic.StableHlo.Predicate

/-! ## The operations' composed terms -/

/-- The positions 0, 1, …, 4095 as 32-bit words. -/
def pos : IVec S4096 32 := iotaInDim S4096 32 0

/-- The positions with the negative ones moved up by the table's height, 4096. -/
def wrapped : IVec S4096 32 :=
  select (cmpi .slt pos (broadcastInDim S4096 ![] bcast_S_S4096 (constantI S_ 32 0#32)))
    (addi pos (broadcastInDim S4096 ![] bcast_S_S4096 (constantI S_ 32 4096#32))) pos

/-- The same as a 4096 × 1 column: the gather's start indices. -/
def col : IVec S4096x1 32 := broadcastInDim S4096x1 ![0] bcast_S4096_S4096x1_0 wrapped

/-- Per position: is its start index between 0 and 4095? -/
def inRange : IVec S4096 1 :=
  Host.reduce IntOp.andi
    (andi (cmpi .sge col (broadcastInDim S4096x1 ![] bcast_S_S4096x1 (constantI S_ 32 0#32)))
      (cmpi .sle col (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

variable {F : FTy → Type} [FloatOps F]

/-- The rows taken from the table: row e is the table's row at start index e where that index is in range, and a
    row of one fixed constant elsewhere. -/
def take (w : FVec F S4096x1024 .f32) : FVec F S4096x1024 .f32 :=
  select (broadcastInDim S4096x1024 ![0] bcast_S4096_S4096x1024_0 inRange)
    (Host.gather gather_S4096x1024_S4096x1_S4096x1024_1_0_n_n_0_1_11024 w col)
    (broadcastInDim S4096x1024 ![] bcast_S_S4096x1024 (constant S_ .f32 0x7FC00000#32))

/-- The reference's result: x's columns contracted with the taken rows' columns. -/
def value (x : FVec F S8192x1024 .f32) (w : FVec F S4096x1024 .f32) : FVec F S8192x4096 .f32 :=
  Host.dotGeneral dot_S8192x1024_S4096x1024_S8192x4096_1_1_0_0_n_n none x (take w)

/-! ## The start indices are the positions -/

/-- A position below 4096, as a word, is not negative: it is not wrapped. -/
theorem wrapped_apply (i : S4096.Idx) : wrapped i = BitVec.ofNat 32 (i 0).val := by
  have hlt : (i 0).val < 4096 := (i 0).isLt
  have hn : (BitVec.ofNat 32 (i 0).val).toNat = (i 0).val := by
    rw [BitVec.toNat_ofNat]; exact Nat.mod_eq_of_lt (by omega)
  have hc : ¬ IntOp.cmpi .slt (BitVec.ofNat 32 (i 0).val) 0#32 = 1#1 := by
    rw [slt_iff_toNat (by rw [hn]; omega) (by decide), hn]
    exact Nat.not_lt_zero _
  show Scalar.select (IntOp.cmpi .slt (BitVec.ofNat 32 (i 0).val) 0#32) _ (BitVec.ofNat 32 (i 0).val) = _
  exact if_neg hc

/-- Every start index is the word of a number below 4096. -/
theorem col_small (i : S4096x1.Idx) : ∃ n : Nat, n < 4096 ∧ col i = BitVec.ofNat 32 n := by
  refine ⟨_, ?_, wrapped_apply _⟩
  exact Fin.isLt _

/-- The start index of entry e is e. -/
theorem col_apply (e : Fin 4096) : col (ix2 e (0 : Fin 1)) = BitVec.ofNat 32 e.val := by
  have h2 : (ix2 e (0 : Fin 1) : S4096x1.Idx) = ixP e := by
    funext a; match a with | ⟨0, _⟩ => rfl | ⟨1, _⟩ => rfl
  rw [h2]
  show broadcastInDim (⟨2, ![4096, 1]⟩ : Shape) ![0] bcast_S4096_S4096x1_0 wrapped (ixP e) = _
  rw [bcast_col1, wrapped_apply]
  rfl

/-! ## The in-range mask is set everywhere -/

/-- A conjunction, from the true bit, of bits that are all set is set. -/
theorem foldl_andi_one {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a, show IntOp.andi 1#1 1#1 = 1#1 from by decide, ih]

theorem inRange_apply (j : S4096.Idx) : inRange j = 1#1 := by
  unfold inRange
  rw [Host.reduce_eq_foldl]
  refine foldl_andi_one _ (fun i => ?_) _
  obtain ⟨n, hn, hcol⟩ := col_small i
  have hv : (BitVec.ofNat 32 n).toNat = n := by
    rw [BitVec.toNat_ofNat]; exact Nat.mod_eq_of_lt (by omega)
  have h1 : IntOp.cmpi .sge (col i) 0#32 = 1#1 := by
    rw [hcol, sge_iff_toNat (by rw [hv]; omega) (by decide)]
    exact Nat.zero_le _
  have h2 : IntOp.cmpi .sle (col i) 4095#32 = 1#1 := by
    rw [hcol, sle_iff_toNat (by rw [hv]; omega) (by decide), hv]
    show n ≤ 4095
    omega
  show IntOp.andi (IntOp.cmpi .sge (col i) 0#32) (IntOp.cmpi .sle (col i) 4095#32) = 1#1
  rw [h1, h2]
  decide

/-! ## The taken rows are the table -/

theorem take_eq (w : FVec F S4096x1024 .f32) : take w = w := by
  funext i
  obtain ⟨e, k, rfl⟩ : ∃ (e : Fin 4096) (k : Fin 1024), i = ix2 e k := ⟨i 0, i 1, eq_ix2 i⟩
  show Scalar.select (inRange _) (Host.gather gather_S4096x1024_S4096x1_S4096x1024_1_0_n_n_0_1_11024 w col (ix2 e k)) _ = _
  rw [inRange_apply, select_one,
    Cert.LibGatherRows.gather_rows_apply gather_S4096x1024_S4096x1_S4096x1024_1_0_n_n_0_1_11024 rfl rfl rfl rfl rfl rfl w col e k
      (by decide)]
  have he : e.val < 4096 := e.isLt
  have hpos : min (col (ix2 e (0 : Fin 1))).toInt.toNat (4096 - 1) = e.val := by
    rw [col_apply, toInt_ofNat_small e.val (by omega), Int.toNat_natCast]
    omega
  exact congrArg (fun a : Fin 4096 => w (ix2 a k)) (Fin.ext hpos)

/-! ## The result is the logits matrix -/

theorem value_eq (x : FVec Ideal S8192x1024 .f32) (w : FVec Ideal S4096x1024 .f32) :
    value x w = Cert.MatSpec.logits x w := by
  unfold value
  rw [take_eq]
  funext i
  obtain ⟨r, c, rfl⟩ : ∃ (r : Fin 8192) (c : Fin 4096), i = ix2 r c := ⟨i 0, i 1, eq_ix2 i⟩
  rw [Cert.MatSpec.logits_apply]
  simp only [Host.dotGeneral]
  rw [Ideal.dotGeneral_apply]
  exact Cert.LibDotT.contr_sum_T dot_S8192x1024_S4096x1024_S8192x4096_1_1_0_0_n_n rfl rfl rfl rfl rfl rfl x w r c

end Cert.ReferenceIdeal.RefValue

end
-- ==== Proof.RefRun.lean ====
/-
  The run of the reference program. Its @main is a straight line of twenty-five tensor operations once the two
  outlined functions are unfolded at their calls: the positions 0, …, 4095; the take of the table's rows at those
  positions (negative positions wrapped, a clipped gather of whole rows, an in-range mask, a select against a fixed
  constant), twenty-three operations into the call's own buffers; and the contraction of x's columns with the taken
  rows' columns. Every weakly fair execution terminates with the result buffer at the operations' composed term of
  the two arguments' launch contents, which is the logits matrix, and the arguments unchanged.
-/
import proofs.«146951_g68109591380859_cont_9to1c4b_295_12_alg».proof.Proof.Gen.ReferenceIdeal
import proofs.«146951_g68109591380859_cont_9to1c4b_295_12_alg».proof.Proof.MatSpec
import proofs.«146951_g68109591380859_cont_9to1c4b_295_12_alg».proof.Proof.RefValue
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- @main's operations in order, the calls unfolded: the positions; the take's twenty-three (the zero and its
    broadcast, the sign test, the table's height and its broadcast, the sum, the inner function's select, the column
    of start indices, the two bounds and their broadcasts, the two comparisons and their conjunction, the true bit,
    the conjunction along the column's one entry, the gather, the mask's broadcast, the fill constant and its
    broadcast, the select); the contraction. -/
abbrev ops : List (HloOp τ sig (Elt F)) :=
  [ nullary main_v0 (iotaInDim S4096 32 0),
    TRef.nullary main_call0.c (constantI S_ 32 0#32),
    TRef.unary main_call0.c main_call0.v0 (broadcastInDim S4096 ![] bcast_S_S4096),
    TRef.binary (.of main_v0) main_call0.v0 main_call0.v1 (cmpi .slt),
    TRef.nullary main_call0.c_0 (constantI S_ 32 4096#32),
    TRef.unary main_call0.c_0 main_call0.v2 (broadcastInDim S4096 ![] bcast_S_S4096),
    TRef.binary (.of main_v0) main_call0.v2 main_call0.v3 addi,
    TRef.ternary main_call0.v1 main_call0.v3 (.of main_v0) main_call0.call0.v0 select,
    TRef.unary main_call0.call0.v0 main_call0.v5 (broadcastInDim S4096x1 ![0] bcast_S4096_S4096x1_0),
    TRef.nullary main_call0.c_1 (constantI S1 32 4095#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S4096x1024_S4096x1_S4096x1024_1_0_n_n_0_1_11024 x i),
    TRef.unary main_call0.v12 main_call0.v14 (broadcastInDim S4096x1024 ![0] bcast_S4096_S4096x1024_0),
    TRef.nullary main_call0.cst (constant S_ .f32 0x7FC00000#32),
    TRef.unary main_call0.cst main_call0.v15 (broadcastInDim S4096x1024 ![] bcast_S_S4096x1024),
    TRef.ternary main_call0.v14 main_call0.v13 main_call0.v15 main_call0.v16 select,
    binary main_arg0 main_v1 main_v2 ((fun l r => Host.dotGeneral dot_S8192x1024_S4096x1024_S8192x4096_1_1_0_0_n_n none l r) : (⟨S8192x1024, .f32⟩ : BufTy).Contents (Elt F) → (⟨S4096x1024, .f32⟩ : BufTy).Contents (Elt F) → (⟨S8192x4096, .f32⟩ : BufTy).Contents (Elt F)) ]

set_option maxRecDepth 1024 in
/-- @main is that straight line: the two functions unfolded at their calls and the call's record at its fields,
    both sides are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub ..⟩

/-- Contents moved to a typed reference's own buffer type and back are unchanged: the two moves are transports along
    one equation and its inverse. -/
theorem ofBuf_toBuf {T : BufTy} (x : TRef sig T) (v : T.Contents (Elt F)) : x.ofBuf (x.toBuf v) = v := by
  obtain ⟨r, h, _, _⟩ := x
  subst h
  rfl

/-- The taken rows' buffer is written through a typed reference and read directly: at that literal reference the
    transport of contents to the reference's own buffer type is the identity. -/
theorem toBuf_v1 (v : (⟨S4096x1024, .f32⟩ : BufTy).Contents (Elt F)) :
    (TRef.of main_v1 : TRef sig ⟨S4096x1024, .f32⟩).toBuf v = v := rfl

set_option maxRecDepth 4096 in
/-- The fold at the result buffer is the composed term: each operation's result decides whether the buffer read is
    the one it writes; the typed references' transports cancel in pairs, and what is left of them (at the positions'
    and the table's own buffers) is the identity by computation. -/
theorem out_eq (V : Valuation τ sig (Elt F)) :
    after ops V (main_v2 : DevRef τ sig)
      = RefValue.value (V (main_arg0 : DevRef τ sig)) (V (main_arg1 : DevRef τ sig)) := by
  after_results
  simp only [ofBuf_toBuf, toBuf_v1]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On the one device, over the extended reals, from any memory with zero counters: every weakly fair execution of
    @main terminates with the result buffer at the logits of the arguments' launch contents and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.MatSpec.logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c main_v2).trans (out_eq _)).trans (RefValue.value_eq _ _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.lean ====
/-
  The certificate: a blocked matrix product with a cached narrowed table equals the logits matrix.

  Both programs compute  out[n, l] = ∑ d, x[n, d] · w[l, d]  over the extended reals, for token embeddings x
  (8192 × 1024) and an embedding table w (4096 × 1024).

  The kernel walks a grid of 8 row blocks of x by 4 tiles of w. On the first row block it narrows each tile of w as
  it arrives and keeps it in a scratch copy of the whole table; at every point it multiplies the narrowed row block
  of x by the transpose of the cached narrowed tile and writes the 1024 × 1024 product into its block of the
  result. Over the extended reals narrowing is the identity, the product accumulated from zero is the plain sum
  over the shared axis, and the 32 blocks tile the result array: the array ends holding the logits matrix.

  The reference gathers the rows of w at the positions 0, 1, …, 4095 — every position in range, so the gather
  with its wrap of negative positions and its out-of-range fill is the identity on w — and contracts x with the
  gathered table over the shared axis: the same sums.

  The three frames come with the runs: each program terminates without a fault and leaves its arguments as they
  were. The idealization rewrote nothing, so it preserves the kernel trivially.
-/
import proofs.«146951_g68109591380859_cont_9to1c4b_295_12_alg».proof.Defs
import proofs.«146951_g68109591380859_cont_9to1c4b_295_12_alg».proof.Proof.Gen.Kernel
import proofs.«146951_g68109591380859_cont_9to1c4b_295_12_alg».proof.Proof.Gen.KernelIdeal
import proofs.«146951_g68109591380859_cont_9to1c4b_295_12_alg».proof.Proof.Gen.ReferenceIdeal
import proofs.«146951_g68109591380859_cont_9to1c4b_295_12_alg».proof.Proof.Gen.Pre_finite_inputs
import proofs.«146951_g68109591380859_cont_9to1c4b_295_12_alg».proof.Proof.BodyDataK
import proofs.«146951_g68109591380859_cont_9to1c4b_295_12_alg».proof.Proof.KernelValue
import proofs.«146951_g68109591380859_cont_9to1c4b_295_12_alg».proof.Proof.RefRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- The reference's run, its result dropped. -/
theorem frame_reference : Cert.frame_ReferenceIdeal := fun m ρ _ =>
  (θ_run Cert.ReferenceIdeal.defs _ _).mono (fun _ h c => (h c).2) (Cert.ReferenceIdeal.RefRun.run m ρ)

/-- From memories that agree on the arguments both runs end at the logits matrix of the same arrays. -/
theorem algebraic : Cert.algebraic_KernelIdeal_ReferenceIdeal := by
  intro m ρ m' ρ' _ hagree
  refine ⟨fun c => Cert.MatSpec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
